-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S2048x2048 : Shape := ⟨2, ![2048, 2048]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x4096x2048 .f32) (main_arg1 : FVec F S2048x2048 .f32) (main_arg2 : FVec F S2048 .f32) (main_arg3 : FVec F S2048x2048 .f32) (main_arg4 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S8x4096x2048 : Shape := ⟨3, ![8, 4096, 2048]⟩
abbrev S2048x2048 : Shape := ⟨2, ![2048, 2048]⟩
abbrev S2048 : Shape := ⟨1, ![2048]⟩
abbrev S8x4096x4 : Shape := ⟨3, ![8, 4096, 4]⟩
abbrev S8x4096x1 : Shape := ⟨3, ![8, 4096, 1]⟩
abbrev S8x4096 : Shape := ⟨2, ![8, 4096]⟩
abbrev S32768x4 : Shape := ⟨2, ![32768, 4]⟩
abbrev S2048x4 : Shape := ⟨2, ![2048, 4]⟩
abbrev S1x2048 : Shape := ⟨2, ![1, 2048]⟩
abbrev S32768x2048 : Shape := ⟨2, ![32768, 2048]⟩
abbrev S512x4 : Shape := ⟨2, ![512, 4]⟩
abbrev S512x2048 : Shape := ⟨2, ![512, 2048]⟩
abbrev S4x2048 : Shape := ⟨2, ![4, 2048]⟩

abbrev nBuf : Space → Nat
  | .hbm => 35
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S8x4096x4, .f32⟩
  | .hbm, ⟨6, _⟩ => ⟨S8x4096x4, .f32⟩
  | .hbm, ⟨7, _⟩ => ⟨S8x4096x1, .f32⟩
  | .hbm, ⟨8, _⟩ => ⟨S8x4096, .f32⟩
  | .hbm, ⟨9, _⟩ => ⟨S8x4096x1, .f32⟩
  | .hbm, ⟨10, _⟩ => ⟨S8x4096, .f32⟩
  | .hbm, ⟨11, _⟩ => ⟨S8x4096x1, .f32⟩
  | .hbm, ⟨12, _⟩ => ⟨S8x4096, .f32⟩
  | .hbm, ⟨13, _⟩ => ⟨S8x4096, .f32⟩
  | .hbm, ⟨14, _⟩ => ⟨S8x4096x1, .f32⟩
  | .hbm, ⟨15, _⟩ => ⟨S8x4096, .f32⟩
  | .hbm, ⟨16, _⟩ => ⟨S8x4096x1, .f32⟩
  | .hbm, ⟨17, _⟩ => ⟨S8x4096, .f32⟩
  | .hbm, ⟨18, _⟩ => ⟨S8x4096x1, .f32⟩
  | .hbm, ⟨19, _⟩ => ⟨S8x4096, .f32⟩
  | .hbm, ⟨20, _⟩ => ⟨S8x4096, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x4, .f32⟩
  | .hbm, ⟨26, _⟩ => ⟨S32768x4, .f32⟩
  | .hbm, ⟨27, _⟩ => ⟨S32768x4, .bf16⟩
  | .hbm, ⟨28, _⟩ => ⟨S2048x4, .f32⟩
  | .hbm, ⟨29, _⟩ => ⟨S2048x4, .bf16⟩
  | .hbm, ⟨30, _⟩ => ⟨S2048x2048, .bf16⟩
  | .hbm, ⟨31, _⟩ => ⟨S1x2048, .f32⟩
  | .hbm, ⟨32, _⟩ => ⟨S1x2048, .f32⟩
  | .hbm, ⟨33, _⟩ => ⟨S32768x2048, .f32⟩
  | .hbm, ⟨34, _⟩ => ⟨S8x4096x2048, .f32⟩
  | .local _ .vmem, ⟨0, _⟩ => ⟨S512x4, .bf16⟩
  | .local _ .vmem, ⟨1, _⟩ => ⟨S512x4, .bf16⟩
  | .local _ .vmem, ⟨2, _⟩ => ⟨S2048x4, .bf16⟩
  | .local _ .vmem, ⟨3, _⟩ => ⟨S1x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8x4096x2048_S8x4096x4_0_0_0 : S8x4096x2048.Slices ![0, 0, 0] S8x4096x4
  slices_S8x4096x4_S8x4096x1_0_0_0 : S8x4096x4.Slices ![0, 0, 0] S8x4096x1
  shapeCasts_S8x4096x1_S8x4096 : S8x4096x1.ShapeCasts S8x4096
  slices_S8x4096x4_S8x4096x1_0_0_1 : S8x4096x4.Slices ![0, 0, 1] S8x4096x1
  slices_S8x4096x4_S8x4096x1_0_0_2 : S8x4096x4.Slices ![0, 0, 2] S8x4096x1
  slices_S8x4096x4_S8x4096x1_0_0_3 : S8x4096x4.Slices ![0, 0, 3] S8x4096x1
  bcast_S8x4096_S8x4096x1_0_1 : S8x4096.BroadcastsInDim S8x4096x1 (![0, 1] : Fin 2 → Fin S8x4096x1.rank)
  concatenates_S8x4096x1_S8x4096x1_S8x4096x1_S8x4096x1_S8x4096x4_d2 : Shape.Concatenates [S8x4096x1, S8x4096x1, S8x4096x1, S8x4096x1] S8x4096x4 2
  shapeCasts_S8x4096x4_S32768x4 : S8x4096x4.ShapeCasts S32768x4
  bitsLt_bf16_f32 : FTy.bits .bf16 < FTy.bits .f32
  slices_S2048x2048_S2048x4_0_0 : S2048x2048.Slices ![0, 0] S2048x4
  shapeCasts_S2048_S1x2048 : S2048.ShapeCasts S1x2048
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  transposes_S2048x4_p1_0_S4x2048 : S2048x4.Transposes [1, 0] S4x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  transposes_S2048x2048_p1_0_S2048x2048 : S2048x2048.Transposes [1, 0] S2048x2048
  inb_S512x2048_S512x2048_0_0 : ∀ a, (![0, 0] : Fin 2 → Nat) a + S512x2048.size a ≤ S512x2048.size a
  h_S512x2048 : 0 < S512x2048.numel
  shapeCasts_S32768x2048_S8x4096x2048 : S32768x2048.ShapeCasts S8x4096x2048
  dot_S512x4_S4x2048_S512x2048_1_0_0_1_n_n_wf : DotDims.WF S512x4 S4x2048 S512x2048 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S32768x4.size a
  hwx0_0 : ∀ i : grid0.Coords, EltTy.bits .bf16 = 32 ∨ (Rect.block (s := S32768x4) S512x4.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S2048x4.size a
  hwx0_1 : ∀ i : grid0.Coords, EltTy.bits .bf16 = 32 ∨ (Rect.block (s := S2048x4) S2048x4.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S32768x2048.size a
  hwx0_5 : ∀ i : grid0.Coords, EltTy.bits .f32 = 32 ∨ (Rect.block (s := S32768x2048) S512x2048.size (cc0_transform_5 i) (hinb0_5 i)).WholeWords (EltTy.packing .f32)

variable [Facts₀]

def dot_S512x4_S4x2048_S512x2048_1_0_0_1_n_n : DotDims S512x4 S4x2048 S512x2048 where
  lhsContracting := [1]
  rhsContracting := [0]
  lhsNonContracting := [0]
  rhsNonContracting := [1]
  lhsBatch := []
  rhsBatch := []
  wf := dot_S512x4_S4x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v22) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2048x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S2048x2048 : Shape := ⟨2, ![2048, 2048]⟩
abbrev S2048 : Shape := ⟨1, ![2048]⟩
abbrev S8x4096x4 : Shape := ⟨3, ![8, 4096, 4]⟩
abbrev S8x4096x1 : Shape := ⟨3, ![8, 4096, 1]⟩
abbrev S8x4096 : Shape := ⟨2, ![8, 4096]⟩
abbrev S_ : Shape := ⟨0, ![]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S8x4096x4, .f32⟩
  | .hbm, ⟨6, _⟩ => ⟨S8x4096x4, .f32⟩
  | .hbm, ⟨7, _⟩ => ⟨S8x4096x1, .f32⟩
  | .hbm, ⟨8, _⟩ => ⟨S8x4096, .f32⟩
  | .hbm, ⟨9, _⟩ => ⟨S8x4096x1, .f32⟩
  | .hbm, ⟨10, _⟩ => ⟨S8x4096, .f32⟩
  | .hbm, ⟨11, _⟩ => ⟨S8x4096x1, .f32⟩
  | .hbm, ⟨12, _⟩ => ⟨S8x4096, .f32⟩
  | .hbm, ⟨13, _⟩ => ⟨S8x4096, .f32⟩
  | .hbm, ⟨14, _⟩ => ⟨S8x4096x1, .f32⟩
  | .hbm, ⟨15, _⟩ => ⟨S8x4096, .f32⟩
  | .hbm, ⟨16, _⟩ => ⟨S8x4096x1, .f32⟩
  | .hbm, ⟨17, _⟩ => ⟨S8x4096, .f32⟩
  | .hbm, ⟨18, _⟩ => ⟨S8x4096x1, .f32⟩
  | .hbm, ⟨19, _⟩ => ⟨S8x4096, .f32⟩
  | .hbm, ⟨20, _⟩ => ⟨S8x4096, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x4, .f32⟩
  | .hbm, ⟨26, _⟩ => ⟨S_, .i32⟩
  | .hbm, ⟨27, _⟩ => ⟨S_, .f32⟩
  | .hbm, ⟨28, _⟩ => ⟨S8x4096x2048, .f32⟩
  | .hbm, ⟨29, _⟩ => ⟨S8x4096x2048, .f32⟩
  | .hbm, ⟨30, _⟩ => ⟨S1x1x2048, .f32⟩
  | .hbm, ⟨31, _⟩ => ⟨S8x4096x2048, .f32⟩
  | .hbm, ⟨32, _⟩ => ⟨S8x4096x2048, .f32⟩
  | .hbm, ⟨33, _⟩ => ⟨S_, .f32⟩
  | .hbm, ⟨34, _⟩ => ⟨S8x4096x2048, .f32⟩
  | .hbm, ⟨35, _⟩ => ⟨S8x4096x2048, .f32⟩
  | .hbm, ⟨36, _⟩ => ⟨S8x4096x2048, .f32⟩
  | .hbm, ⟨37, _⟩ => ⟨S1x1x2048, .f32⟩
  | .hbm, ⟨38, _⟩ => ⟨S8x4096x2048, .f32⟩
  | .hbm, ⟨39, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_call0_v0 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call1_cst : Ref sig .tc := ⟨.hbm, 33, rfl⟩
abbrev main_call1_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  slices_S8x4096x2048_S8x4096x4_0_0_0 : S8x4096x2048.Slices ![0, 0, 0] S8x4096x4
  slices_S8x4096x4_S8x4096x1_0_0_0 : S8x4096x4.Slices ![0, 0, 0] S8x4096x1
  shapeCasts_S8x4096x1_S8x4096 : S8x4096x1.ShapeCasts S8x4096
  slices_S8x4096x4_S8x4096x1_0_0_1 : S8x4096x4.Slices ![0, 0, 1] S8x4096x1
  slices_S8x4096x4_S8x4096x1_0_0_2 : S8x4096x4.Slices ![0, 0, 2] S8x4096x1
  slices_S8x4096x4_S8x4096x1_0_0_3 : S8x4096x4.Slices ![0, 0, 3] S8x4096x1
  bcast_S8x4096_S8x4096x1_0_1 : S8x4096.BroadcastsInDim S8x4096x1 (![0, 1] : Fin 2 → Fin S8x4096x1.rank)
  concatenates_S8x4096x1_S8x4096x1_S8x4096x1_S8x4096x1_S8x4096x4_d2 : Shape.Concatenates [S8x4096x1, S8x4096x1, S8x4096x1, S8x4096x1] S8x4096x4 2
  pads_S8x4096x4_S8x4096x2048_000_000_020440 : S8x4096x4.Pads (![0, 0, 0] : Fin 3 → Nat) ![0, 0, 2044] ![0, 0, 0] S8x4096x2048
  h_S_ : 0 < S_.numel
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  bcast_S_S8x4096x2048 : S_.BroadcastsInDim S8x4096x2048 (![] : Fin 0 → Fin S8x4096x2048.rank)
  dot_S8x4096x2048_S2048x2048_S8x4096x2048_2_1_01_0_n_n_wf : DotDims.WF S8x4096x2048 S2048x2048 S8x4096x2048 [2] [1] [0, 1] [0] [] []

variable [Facts₀]

def dot_S8x4096x2048_S2048x2048_S8x4096x2048_2_1_01_0_n_n : DotDims S8x4096x2048 S2048x2048 S8x4096x2048 where
  lhsContracting := [2]
  rhsContracting := [1]
  lhsNonContracting := [0, 1]
  rhsNonContracting := [0]
  lhsBatch := []
  rhsBatch := []
  wf := dot_S8x4096x2048_S2048x2048_S8x4096x2048_2_1_01_0_n_n_wf

class Facts : Prop extends Facts₀ where

variable [Facts]
-- ==== Proof.FrameK.lean ====
/-
  The frame of the program: its one pallas_call between the host lines before it and the reshape after it.

  The region is entered with the windows' arrays at what the host lines before it computed from the arguments (`V`);
  at grid point `t` the body finds each of its five input windows at that window's block of its array (`iblk`) and
  leaves the output window's buffer at the one value it stores there (`outBlock`: the second matrix product plus its
  bias, over the five input blocks), whatever the buffer held before (the body also loads the output buffer once and
  drops the value).  No host line, before or after, writes an argument array, and no argument array is an array of the
  pipeline: the arguments end as launched.  Stated at any float instance.
-/
import proofs.«135463_j65481071402365_1_alg».proof.Proof.Gen.Kernel.Launch
import proofs.«135463_j65481071402365_1_alg».proof.Proof.Gen.Kernel.Skeleton
import proofs.«135463_j65481071402365_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core `c`'s buffer contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the reshape after it: it reduces to the region
    continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a window whose
    block index does not move keeps the block the first point fetched), for any proof data whose array is `V`'s and
    whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments are arrays no window stages, so the run's post has each at what the line after the region leaves,
    which is what the lines before it left, which is what it was launched with. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## The body's accesses -/

abbrev rQ : Rect S512x4 := Rect.unit (s := S512x4) ![0, 0] S512x4.size inb_S512x4_S512x4_0_0
abbrev rW1 : Rect S2048x4 := Rect.unit (s := S2048x4) ![0, 0] S2048x4.size inb_S2048x4_S2048x4_0_0
abbrev rB : Rect S1x2048 := Rect.unit (s := S1x2048) ![0, 0] S1x2048.size inb_S1x2048_S1x2048_0_0
abbrev rW2 : Rect S2048x2048 := Rect.unit (s := S2048x2048) ![0, 0] S2048x2048.size inb_S2048x2048_S2048x2048_0_0
abbrev rO : Rect S512x2048 := Rect.unit (s := S512x2048) ![0, 0] S512x2048.size inb_S512x2048_S512x2048_0_0

/-! ## What the body leaves in the output window's buffer -/

/-- The output window's staging buffer after the body, from the input windows' blocks: its one store, of the whole
    block. -/
def outBlock (x0 : Vec F S512x4 .bf16) (x1 : Vec F S2048x4 .bf16) (x2 : Vec F S1x2048 .f32) (x3 : Vec F S2048x2048 .bf16) (x4 : Vec F S1x2048 .f32) : Vec F S512x2048 .f32 :=
  View.canon [⟨rO, k0_pay1 (View.ld x0 rQ) (View.ld x1 rW1) (View.ld x2 rB) (View.ld x3 rW2) (View.ld x4 rB)⟩]

/-- The store's rectangle is the whole buffer. -/
theorem coverO (p0 : Vec F S512x2048 .f32) (y : S512x2048.Idx) :
    ∃ pc ∈ ([⟨rO, p0⟩] : List (View.Piece (Elt F) S512x2048 .f32)), y ∈ pc.1.set :=
  View.cover_of_tiled [⟨rO, p0⟩] S512x2048.size (by rfl) y

/-! ## The body's triple -/

set_option maxHeartbeats 1000000 in
/-- The kernel body on whole staging memrefs, the inputs' at contents `xW` and the output's at anything, runs to the
    continuation holding the inputs' as they were and the output's at `outBlock` of the inputs'. -/
theorem sound_kernel (c : Dev nD) (E : Set ℕ) (i : grid0.Coords)
    (arg1 : Memref sig .tc .vmem S512x4 .bf16) (harg1 : arg1.IsWhole) (arg2 : Memref sig .tc .vmem S2048x4 .bf16) (harg2 : arg2.IsWhole)
    (arg3 : Memref sig .tc .vmem S1x2048 .f32) (harg3 : arg3.IsWhole) (arg4 : Memref sig .tc .vmem S2048x2048 .bf16) (harg4 : arg4.IsWhole)
    (arg5 : Memref sig .tc .vmem S1x2048 .f32) (harg5 : arg5.IsWhole) (arg6 : Memref sig .tc .vmem S512x2048 .f32) (harg6 : arg6.IsWhole)
    (x0 : Vec F S512x4 .bf16) (x1 : Vec F S2048x4 .bf16) (x2 : Vec F S1x2048 .f32) (x3 : Vec F S2048x2048 .bf16) (x4 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__ffn_kernel i arg1 harg1 arg2 harg2 arg3 harg3 arg4 harg4 arg5 harg5 arg6 harg6) K := by
  simp only [cc0__ffn_kernel_eq_skeleton]; unfold cc0__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-! ## The pipeline's proof data -/

/-- The proof data of the pipeline on core `c`: the arrays as the region finds them; after the body at point `t` each
    input's buffer at its block and the output's at `outBlock` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as the
    line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Frm

end
-- ==== Proof.FrameKI.lean ====
/-
  The frame of the program: its one pallas_call between the host lines before it and the reshape after it.

  The region is entered with the windows' arrays at what the host lines before it computed from the arguments (`V`);
  at grid point `t` the body finds each of its five input windows at that window's block of its array (`iblk`) and
  leaves the output window's buffer at the one value it stores there (`outBlock`: the second matrix product plus its
  bias, over the five input blocks), whatever the buffer held before (the body also loads the output buffer once and
  drops the value).  No host line, before or after, writes an argument array, and no argument array is an array of the
  pipeline: the arguments end as launched.  Stated at any float instance.
-/
import proofs.«135463_j65481071402365_1_alg».proof.Proof.Gen.KernelIdeal.Launch
import proofs.«135463_j65481071402365_1_alg».proof.Proof.Gen.KernelIdeal.Skeleton
import proofs.«135463_j65481071402365_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- Core `c`'s buffer contents when the region is entered: after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is the host lines before the region, the region, and the reshape after it: it reduces to the region
    continued by the later line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes its own result buffer, which is no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a window whose
    block index does not move keeps the block the first point fetched), for any proof data whose array is `V`'s and
    whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments are arrays no window stages, so the run's post has each at what the line after the region leaves,
    which is what the lines before it left, which is what it was launched with. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## The body's accesses -/

abbrev rQ : Rect S512x4 := Rect.unit (s := S512x4) ![0, 0] S512x4.size inb_S512x4_S512x4_0_0
abbrev rW1 : Rect S2048x4 := Rect.unit (s := S2048x4) ![0, 0] S2048x4.size inb_S2048x4_S2048x4_0_0
abbrev rB : Rect S1x2048 := Rect.unit (s := S1x2048) ![0, 0] S1x2048.size inb_S1x2048_S1x2048_0_0
abbrev rW2 : Rect S2048x2048 := Rect.unit (s := S2048x2048) ![0, 0] S2048x2048.size inb_S2048x2048_S2048x2048_0_0
abbrev rO : Rect S512x2048 := Rect.unit (s := S512x2048) ![0, 0] S512x2048.size inb_S512x2048_S512x2048_0_0

/-! ## What the body leaves in the output window's buffer -/

/-- The output window's staging buffer after the body, from the input windows' blocks: its one store, of the whole
    block. -/
def outBlock (x0 : Vec F S512x4 .bf16) (x1 : Vec F S2048x4 .bf16) (x2 : Vec F S1x2048 .f32) (x3 : Vec F S2048x2048 .bf16) (x4 : Vec F S1x2048 .f32) : Vec F S512x2048 .f32 :=
  View.canon [⟨rO, k0_pay1 (View.ld x0 rQ) (View.ld x1 rW1) (View.ld x2 rB) (View.ld x3 rW2) (View.ld x4 rB)⟩]

/-- The store's rectangle is the whole buffer. -/
theorem coverO (p0 : Vec F S512x2048 .f32) (y : S512x2048.Idx) :
    ∃ pc ∈ ([⟨rO, p0⟩] : List (View.Piece (Elt F) S512x2048 .f32)), y ∈ pc.1.set :=
  View.cover_of_tiled [⟨rO, p0⟩] S512x2048.size (by rfl) y

/-! ## The body's triple -/

set_option maxHeartbeats 1000000 in
/-- The kernel body on whole staging memrefs, the inputs' at contents `xW` and the output's at anything, runs to the
    continuation holding the inputs' as they were and the output's at `outBlock` of the inputs'. -/
theorem sound_kernel (c : Dev nD) (E : Set ℕ) (i : grid0.Coords)
    (arg1 : Memref sig .tc .vmem S512x4 .bf16) (harg1 : arg1.IsWhole) (arg2 : Memref sig .tc .vmem S2048x4 .bf16) (harg2 : arg2.IsWhole)
    (arg3 : Memref sig .tc .vmem S1x2048 .f32) (harg3 : arg3.IsWhole) (arg4 : Memref sig .tc .vmem S2048x2048 .bf16) (harg4 : arg4.IsWhole)
    (arg5 : Memref sig .tc .vmem S1x2048 .f32) (harg5 : arg5.IsWhole) (arg6 : Memref sig .tc .vmem S512x2048 .f32) (harg6 : arg6.IsWhole)
    (x0 : Vec F S512x4 .bf16) (x1 : Vec F S2048x4 .bf16) (x2 : Vec F S1x2048 .f32) (x3 : Vec F S2048x2048 .bf16) (x4 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__ffn_kernel i arg1 harg1 arg2 harg2 arg3 harg3 arg4 harg4 arg5 harg5 arg6 harg6) K := by
  simp only [cc0__ffn_kernel_eq_skeleton]; unfold cc0__ffn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

/-! ## The pipeline's proof data -/

/-- The proof data of the pipeline on core `c`: the arrays as the region finds them; after the body at point `t` each
    input's buffer at its block and the output's at `outBlock` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so `sound_kernel` applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the library computes from the proof data and every other unscoped buffer as the
    line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any float instance: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Frm

end
-- ==== Proof.Spec.lean ====
/-
  The feed-forward block both programs compute, as one function of the feature array and the parameters, over the
  extended reals.  For a row `(b, s)` with features `q (b, s, ·)` (four of them), the hidden unit `g` is
  `max (∑ k < 4, q (b, s, k) · W1 (g, k) + b1 g) 0` and the output coordinate `e` is
  `∑ g < 2048, hidden (b, s, g) · W2 (e, g) + b2 e`.

  The reference contracts over all 2048 columns of `W1` against the features padded with zeros; the padded columns
  contribute `0 · W1 (g, f) = 0`, which holds on the extended reals whatever `W1 (g, f)` is, so that sum is the sum over the
  first four columns (`sum_pad`).
-/
import Idealize.ShloMosaic.PureOps.Ideal
import Idealize.ShloMosaic.Lib.ValueIdx

noncomputable section

namespace Cert.Ffn

open Idealize.ShloMosaic Idealize.ShloMosaic.ValueIdx

/-- Column `k < 4` as a column of the 2048-wide weight matrix. -/
abbrev col (k : Fin 4) : Fin 2048 := Fin.castLE (by norm_num) k

/-- Hidden unit `g` of row `(b, s)`: the rectified affine image of the row's four features. -/
def hidden (q : (⟨3, ![8, 4096, 4]⟩ : Shape).Idx → EReal) (w1 : (⟨2, ![2048, 2048]⟩ : Shape).Idx → EReal)
    (b1 : (⟨1, ![2048]⟩ : Shape).Idx → EReal) (b : Fin 8) (s : Fin 4096) (g : Fin 2048) : EReal :=
  max ((∑ k : Fin 4, q (ix3 b s k) * w1 (ix2 g (col k))) + b1 (ix1 g)) 0

/-- Output coordinate `e` of row `(b, s)`. -/
def out (q : (⟨3, ![8, 4096, 4]⟩ : Shape).Idx → EReal) (w1 : (⟨2, ![2048, 2048]⟩ : Shape).Idx → EReal)
    (b1 : (⟨1, ![2048]⟩ : Shape).Idx → EReal) (w2 : (⟨2, ![2048, 2048]⟩ : Shape).Idx → EReal)
    (b2 : (⟨1, ![2048]⟩ : Shape).Idx → EReal) (b : Fin 8) (s : Fin 4096) (e : Fin 2048) : EReal :=
  (∑ g : Fin 2048, hidden q w1 b1 b s g * w2 (ix2 e g)) + b2 (ix1 e)

/-- The whole result array. -/
def result (q : (⟨3, ![8, 4096, 4]⟩ : Shape).Idx → EReal) (w1 : (⟨2, ![2048, 2048]⟩ : Shape).Idx → EReal)
    (b1 : (⟨1, ![2048]⟩ : Shape).Idx → EReal) (w2 : (⟨2, ![2048, 2048]⟩ : Shape).Idx → EReal)
    (b2 : (⟨1, ![2048]⟩ : Shape).Idx → EReal) : (⟨3, ![8, 4096, 2048]⟩ : Shape).Idx → EReal :=
  fun i => out q w1 b1 w2 b2 (i 0) (i 1) (i 2)

/-- A sum over 2048 columns whose terms vanish from column 4 on is the sum over the first four. -/
theorem sum_pad (a : Fin 2048 → EReal) (h : ∀ f : Fin 2048, 4 ≤ f.val → a f = 0) :
    ∑ f : Fin 2048, a f = ∑ k : Fin 4, a (col k) := by
  have e : ∑ f : Fin 2048, a f = ∑ f : Fin (4 + 2044), a (Fin.cast (by norm_num) f) :=
    (Fin.castOrderIso (show 4 + 2044 = 2048 by norm_num)).toEquiv.sum_comp a |>.symm
  rw [e, Fin.sum_univ_add]
  have hz : ∑ j : Fin 2044, a (Fin.cast (by norm_num) (Fin.natAdd 4 j)) = 0 :=
    Finset.sum_eq_zero fun j _ => h _ (by simp [Fin.natAdd])
  rw [hz, add_zero]
  exact Finset.sum_congr rfl fun k _ => congrArg a (Fin.ext rfl)

end Cert.Ffn

end
-- ==== Proof.KHost.lean ====
/-
  The arrays the region is entered with, at the ideal instance, as functions of the program's arguments.

  The host lines before the region compute: the feature array (cosines of the first four columns of the input and two
  products of them, joined along a new last axis: `feat`), re-laid as 32768 rows of 4 and narrowed (the identity on
  extended reals); the first four columns of the first weight matrix, narrowed; the second weight matrix, narrowed; the
  two bias vectors as rows.  Each is then read at an index: row `r` of the re-laid features is row `(r / 4096, r % 4096)`
  of `feat`.
-/
import proofs.«135463_j65481071402365_1_alg».proof.Proof.FrameKI
import proofs.«135463_j65481071402365_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.KHost

open Idealize.ShloMosaic Idealize.ShloMosaic.TcCoe Idealize.SL.Sem Idealize.ShloMosaic.StableHlo
open Idealize.ShloMosaic.ValueIdx
open Cert.KernelIdeal Cert.KernelIdeal.Gen Cert.KernelIdeal.Frm

variable (m : (ℓ : Loc nD τ sig) → Buf (Elt Ideal) ℓ)

/-- The feature array: the host lines from the slice of the input to the join of the four feature columns. -/
def feat (x0 : FVec Ideal S8x4096x2048 .f32) : FVec Ideal S8x4096x4 .f32 :=
  have cs : FVec Ideal S8x4096x4 .f32 := Host.cos (F := Ideal) (extractStridedSlice S8x4096x4 ![0, 0, 0] x0 slices_S8x4096x2048_S8x4096x4_0_0_0)
  have c0 : FVec Ideal S8x4096 .f32 := shapeCast S8x4096 (extractStridedSlice S8x4096x1 ![0, 0, 0] cs slices_S8x4096x4_S8x4096x1_0_0_0) shapeCasts_S8x4096x1_S8x4096
  have c1 : FVec Ideal S8x4096 .f32 := shapeCast S8x4096 (extractStridedSlice S8x4096x1 ![0, 0, 1] cs slices_S8x4096x4_S8x4096x1_0_0_1) shapeCasts_S8x4096x1_S8x4096
  have c2 : FVec Ideal S8x4096 .f32 := shapeCast S8x4096 (extractStridedSlice S8x4096x1 ![0, 0, 2] cs slices_S8x4096x4_S8x4096x1_0_0_2) shapeCasts_S8x4096x1_S8x4096
  have c3 : FVec Ideal S8x4096 .f32 := shapeCast S8x4096 (extractStridedSlice S8x4096x1 ![0, 0, 3] cs slices_S8x4096x4_S8x4096x1_0_0_3) shapeCasts_S8x4096x1_S8x4096
  concatenate S8x4096x4 2 [⟨S8x4096x1, broadcastInDim S8x4096x1 ![0, 1] bcast_S8x4096_S8x4096x1_0_1 c0⟩,
    ⟨S8x4096x1, broadcastInDim S8x4096x1 ![0, 1] bcast_S8x4096_S8x4096x1_0_1 (mulf c0 c1)⟩,
    ⟨S8x4096x1, broadcastInDim S8x4096x1 ![0, 1] bcast_S8x4096_S8x4096x1_0_1 c2⟩,
    ⟨S8x4096x1, broadcastInDim S8x4096x1 ![0, 1] bcast_S8x4096_S8x4096x1_0_1 (mulf c2 c3)⟩]
    concatenates_S8x4096x1_S8x4096x1_S8x4096x1_S8x4096x1_S8x4096x4_d2

/-! ## The windows' arrays as the region finds them -/

theorem V_v22 (c : Dev nD) : (V m c main_v22 : S32768x4.Idx → EReal)
    = truncf .bf16 (shapeCast S32768x4 (feat (m ((c : Thread nD τ).loc main_arg0))) shapeCasts_S8x4096x4_S32768x4) bitsLt_bf16_f32 := by
  show StableHlo.after hostOps0 (fun b => m (c, b)) (Proc.devRef .tc main_v22) = _
  after_results
  rfl

theorem V_v24 (c : Dev nD) : (V m c main_v24 : S2048x4.Idx → EReal)
    = (truncf (F := Ideal) .bf16 (extractStridedSlice S2048x4 ![0, 0] (m ((c : Thread nD τ).loc main_arg1) : FVec Ideal S2048x2048 .f32) slices_S2048x2048_S2048x4_0_0) bitsLt_bf16_f32 : FVec Ideal S2048x4 .bf16) := by
  show StableHlo.after hostOps0 (fun b => m (c, b)) (Proc.devRef .tc main_v24) = _
  after_results

theorem V_v25 (c : Dev nD) : (V m c main_v25 : S2048x2048.Idx → EReal)
    = (truncf (F := Ideal) .bf16 (m ((c : Thread nD τ).loc main_arg3) : FVec Ideal S2048x2048 .f32) bitsLt_bf16_f32 : FVec Ideal S2048x2048 .bf16) := by
  show StableHlo.after hostOps0 (fun b => m (c, b)) (Proc.devRef .tc main_v25) = _
  after_results

theorem V_v26 (c : Dev nD) : (V m c main_v26 : S1x2048.Idx → EReal)
    = shapeCast S1x2048 (m ((c : Thread nD τ).loc main_arg2)) shapeCasts_S2048_S1x2048 := by
  show StableHlo.after hostOps0 (fun b => m (c, b)) (Proc.devRef .tc main_v26) = _
  after_results
  rfl

theorem V_v27 (c : Dev nD) : (V m c main_v27 : S1x2048.Idx → EReal)
    = shapeCast S1x2048 (m ((c : Thread nD τ).loc main_arg4)) shapeCasts_S2048_S1x2048 := by
  show StableHlo.after hostOps0 (fun b => m (c, b)) (Proc.devRef .tc main_v27) = _
  after_results
  rfl

/-! ## The same, read at an index -/

/-- Row `r` of the re-laid features is row `(r / 4096, r % 4096)` of the feature array. -/
theorem v22_apply (c : Dev nD) (r : Fin 32768) (k : Fin 4) :
    (V m c main_v22 : S32768x4.Idx → EReal) (ix2 r k)
      = feat (m ((c : Thread nD τ).loc main_arg0)) (ix3 (⟨r.val / 4096, by omega⟩ : Fin 8) (⟨r.val % 4096, by omega⟩ : Fin 4096) k) := by
  rw [V_v22]
  show shapeCast S32768x4 (feat (m ((c : Thread nD τ).loc main_arg0))) shapeCasts_S8x4096x4_S32768x4 (ix2 r k) = _
  refine shapeCast_apply _ _ (ix2 r k) _ ?_
  rw [Shape.rowMajor_val_three, Shape.rowMajor_val_two]
  show (r.val / 4096 * 4096 + r.val % 4096) * 4 + k.val = r.val * 4 + k.val
  omega

/-- The staged first weight matrix is the first four columns of the argument. -/
theorem v24_apply (c : Dev nD) (g : Fin 2048) (k : Fin 4) :
    (V m c main_v24 : S2048x4.Idx → EReal) (ix2 g k) = (m ((c : Thread nD τ).loc main_arg1) : S2048x2048.Idx → EReal) (ix2 g (Cert.Ffn.col k)) := by
  rw [V_v24]
  show extractStridedSlice S2048x4 ![0, 0] (m ((c : Thread nD τ).loc main_arg1) : FVec Ideal S2048x2048 .f32) slices_S2048x2048_S2048x4_0_0 (ix2 g k) = _
  refine extractStridedSlice_apply ![0, 0] _ slices_S2048x2048_S2048x4_0_0 (ix2 g k) (ix2 g (Cert.Ffn.col k)) fun a => ?_
  match a with
  | ⟨0, _⟩ => exact (Nat.zero_add _).symm
  | ⟨1, _⟩ => exact (Nat.zero_add _).symm

/-- The staged second weight matrix is the argument. -/
theorem v25_apply (c : Dev nD) (i : S2048x2048.Idx) :
    (V m c main_v25 : S2048x2048.Idx → EReal) i = (m ((c : Thread nD τ).loc main_arg3) : S2048x2048.Idx → EReal) i := by
  rw [V_v25]; rfl

/-- The staged first bias row is the argument vector. -/
theorem v26_apply (c : Dev nD) (z : Fin 1) (g : Fin 2048) :
    (V m c main_v26 : S1x2048.Idx → EReal) (ix2 z g) = (m ((c : Thread nD τ).loc main_arg2) : S2048.Idx → EReal) (ix1 g) := by
  rw [V_v26]
  refine shapeCast_apply _ _ (ix2 z g) (ix1 g) ?_
  rw [Shape.rowMajor_val_two, Shape.rowMajor_val_one]
  show g.val = z.val * 2048 + g.val
  have := z.isLt; omega

/-- The staged second bias row is the argument vector. -/
theorem v27_apply (c : Dev nD) (z : Fin 1) (e : Fin 2048) :
    (V m c main_v27 : S1x2048.Idx → EReal) (ix2 z e) = (m ((c : Thread nD τ).loc main_arg4) : S2048.Idx → EReal) (ix1 e) := by
  rw [V_v27]
  refine shapeCast_apply _ _ (ix2 z e) (ix1 e) ?_
  rw [Shape.rowMajor_val_two, Shape.rowMajor_val_one]
  show e.val = z.val * 2048 + e.val
  have := z.isLt; omega

end Cert.KernelIdeal.KHost

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Payload.lean ====
/-
  The kernel body's one stored value, read at an index (p, e) of its 512 x 2048 block, at the extended reals.

  The body forms, from a 512 x 4 block of features v0, the first weight matrix's first four columns v2 (2048 x 4), the
  first bias row v6, the second weight matrix v13 (2048 x 2048) and the second bias row v17:
    hidden (p, g) = max (∑ k < 4, v0 (p, k) · v2 (g, k) + v6 (0, g)) 0,
    stored (p, e) = ∑ g < 2048, hidden (p, g) · v13 (e, g) + v17 (0, e).
  Each matrix product contracts the left operand's columns against the rows of the right operand, which is the weight
  matrix transposed, so the right factor at (k, g) is the weight at (g, k); the accumulator is the zero array, so no
  term is added to the sum; a bias row broadcast over the rows reads its one row; the change of format between the two
  layers is the identity on extended reals; a cast to the same shape is the identity.
-/
import proofs.«135463_j65481071402365_1_alg».proof.Proof.Gen.KernelIdeal.Skeleton
import proofs.«135463_j65481071402365_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The first product, 512 x 4 by 4 x 2048 into the zero accumulator, read at (p, g): the sum over the four
    contracted columns. -/
theorem mm1_apply (l : FVec Ideal S512x4 .bf16) (r : FVec Ideal S4x2048 .bf16) (p : Fin 512) (g : Fin 2048) :
    matmul dot_S512x4_S4x2048_S512x2048_1_0_0_1_n_n none l r (constant S512x2048 .f32 0x00000000#32) (ix2 p g)
      = ∑ k : Fin 4, l (ix2 p k) * r (ix2 k g) := by
  show matmul (DotDims.plain 512 4 2048) none l r (constant ⟨2, ![512, 2048]⟩ .f32 0x00000000#32) (ix2 p g) = _
  exact PlainDot.matmul_zero_apply 512 4 2048 none l r (ix2 p g)

/-- The second product, 512 x 2048 by 2048 x 2048 into the zero accumulator, read at (p, e). -/
theorem mm2_apply (l : FVec Ideal S512x2048 .bf16) (r : FVec Ideal S2048x2048 .bf16) (p : Fin 512) (e : Fin 2048) :
    matmul dot_S512x2048_S2048x2048_S512x2048_1_0_0_1_n_n none l r (constant S512x2048 .f32 0x00000000#32) (ix2 p e)
      = ∑ g : Fin 2048, l (ix2 p g) * r (ix2 g e) := by
  show matmul (DotDims.plain 512 2048 2048) none l r (constant ⟨2, ![512, 2048]⟩ .f32 0x00000000#32) (ix2 p e) = _
  exact PlainDot.matmul_zero_apply 512 2048 2048 none l r (ix2 p e)

/-- The first weight matrix transposed, read at (k, g), is the matrix at (g, k). -/
theorem tr1_apply (x : FVec Ideal S2048x4 .bf16) (k : Fin 4) (g : Fin 2048) :
    transpose S4x2048 [1, 0] x transposes_S2048x4_p1_0_S4x2048 (ix2 k g) = x (ix2 g k) :=
  transpose_ix2_apply x transposes_S2048x4_p1_0_S4x2048 k g

/-- The second weight matrix transposed, read at (g, e), is the matrix at (e, g). -/
theorem tr2_apply (x : FVec Ideal S2048x2048 .bf16) (g : Fin 2048) (e : Fin 2048) :
    transpose S2048x2048 [1, 0] x transposes_S2048x2048_p1_0_S2048x2048 (ix2 g e) = x (ix2 e g) :=
  transpose_ix2_apply x transposes_S2048x2048_p1_0_S2048x2048 g e

/-- A bias row broadcast over the 512 rows, read at (p, c), is the row at c. -/
theorem bc_apply (x : FVec Ideal S1x2048 .f32) (p : Fin 512) (c : Fin 2048) :
    broadcastTo S512x2048 x broadcasts_S1x2048_S512x2048 (ix2 p c) = x (ix2 (0 : Fin 1) c) :=
  broadcastTo_1b_ab_apply x broadcasts_S1x2048_S512x2048 p c

/-- The hidden layer read at (p, g): the rectified affine image of row p's four features. -/
theorem hidden_apply (v0 : FVec Ideal S512x4 .bf16) (v2 : FVec Ideal S2048x4 .bf16) (v6 : FVec Ideal S1x2048 .f32)
    (p : Fin 512) (g : Fin 2048) :
    truncf FTy.bf16
        (maximumf
          (addf
            (matmul dot_S512x4_S4x2048_S512x2048_1_0_0_1_n_n none v0
              (transpose S4x2048 [1, 0] v2 transposes_S2048x4_p1_0_S4x2048) (constant S512x2048 .f32 0x00000000#32))
            (broadcastTo S512x2048 v6 broadcasts_S1x2048_S512x2048))
          (broadcast S512x2048 (Scalar.ofBits (F := Ideal) .f32 0x00000000#32)))
        bitsLt_bf16_f32 (ix2 p g)
      = max ((∑ k : Fin 4, v0 (ix2 p k) * v2 (ix2 g k)) + v6 (ix2 (0 : Fin 1) g)) 0 := by
  rw [truncf_apply, maximumf_apply, addf_apply, mm1_apply, bc_apply, broadcast_apply]
  have hz : (Scalar.ofBits (F := Ideal) .f32 0x00000000#32 : Ideal .f32) = 0 := Ideal.ofBits_zero_f32
  rw [hz]
  refine congrArg (fun t => max (t + v6 (ix2 (0 : Fin 1) g)) 0) (Finset.sum_congr rfl fun k _ => ?_)
  rw [tr1_apply]

/-- The body's stored value read at (p, e): the second layer's sum over the 2048 hidden units of row p, plus the
    second bias at e. -/
theorem pay1_apply (v0 : Vec Ideal S512x4 .bf16) (v2 : Vec Ideal S2048x4 .bf16) (v6 : Vec Ideal S1x2048 .f32)
    (v13 : Vec Ideal S2048x2048 .bf16) (v17 : Vec Ideal S1x2048 .f32) (p : Fin 512) (e : Fin 2048) :
    k0_pay1 (F := Ideal) v0 v2 v6 v13 v17 (ix2 p e)
      = (∑ g : Fin 2048, max ((∑ k : Fin 4, v0 (ix2 p k) * v2 (ix2 g k)) + v6 (ix2 0 g)) 0 * v13 (ix2 e g)) + v17 (ix2 0 e) := by
  unfold k0_pay1
  simp only [shapeCast_self]
  rw [addf_apply, mm2_apply, bc_apply]
  refine congrArg (fun t => t + v17 (ix2 (0 : Fin 1) e)) (Finset.sum_congr rfl fun g _ => ?_)
  rw [tr2_apply]
  exact congrArg (fun t => t * v13 (ix2 e g)) (hidden_apply v0 v2 v6 p g)

end Cert.KernelIdeal.Payload

end
-- ==== Proof.KBlocks.lean ====
/-
  The idealized kernel's result as one function of its arguments.

  Grid point `t` handles rows `512 t … 512 t + 511` of the 32768 rows: its feature block is those rows of the re-laid
  feature array, the parameter blocks are the whole (narrowed) parameter arrays at every point, and what it writes back
  is, at `(p, e)`, the feed-forward output of row `512 t + p` at coordinate `e`.  The 64 blocks tile the output array, so it
  ends as the feed-forward output of every row; the reshape after the region re-lays row `r` as `(r / 4096, r % 4096)`.
-/
import proofs.«135463_j65481071402365_1_alg».proof.Proof.KHost
import proofs.«135463_j65481071402365_1_alg».proof.Proof.Payload

set_option maxRecDepth 16384

noncomputable section

namespace Cert.KernelIdeal.KBlocks

open Idealize.ShloMosaic Idealize.ShloMosaic.TcCoe Idealize.SL.Sem Idealize.ShloMosaic.StableHlo
open Idealize.ShloMosaic.ValueIdx
open Idealize.ShloMosaic.Pipeline (Dat)
open Cert.KernelIdeal Cert.KernelIdeal.Gen Cert.KernelIdeal.Frm Cert.KernelIdeal.KHost

/-! ## One block's value -/

/-- The body's stored value at `(p, e)`, when the feature block's row `p` is row `(b, s)` of the feature array and the
    parameter blocks are the parameters: the feed-forward output of row `(b, s)` at `e`. -/
theorem block_value (x0 : Vec Ideal S512x4 .bf16) (x1 : Vec Ideal S2048x4 .bf16) (x2 : Vec Ideal S1x2048 .f32)
    (x3 : Vec Ideal S2048x2048 .bf16) (x4 : Vec Ideal S1x2048 .f32)
    (q : S8x4096x4.Idx → EReal) (w1 : S2048x2048.Idx → EReal) (b1 : S2048.Idx → EReal) (w2 : S2048x2048.Idx → EReal) (b2 : S2048.Idx → EReal)
    (p : Fin 512) (e : Fin 2048) (b : Fin 8) (s : Fin 4096)
    (h0 : ∀ k : Fin 4, x0 (ix2 p k) = q (ix3 b s k))
    (h1 : ∀ (g : Fin 2048) (k : Fin 4), x1 (ix2 g k) = w1 (ix2 g (Cert.Ffn.col k)))
    (h2 : ∀ g : Fin 2048, x2 (ix2 0 g) = b1 (ix1 g))
    (h3 : ∀ (e g : Fin 2048), x3 (ix2 e g) = w2 (ix2 e g))
    (h4 : ∀ e : Fin 2048, x4 (ix2 0 e) = b2 (ix1 e)) :
    k0_pay1 (F := Ideal) x0 x1 x2 x3 x4 (ix2 p e) = Cert.Ffn.out q w1 b1 w2 b2 b s e := by
  rw [Cert.KernelIdeal.Payload.pay1_apply]
  unfold Cert.Ffn.out Cert.Ffn.hidden
  simp only [h0, h1, h2, h3, h4]

/-! ## The output array, all 32768 rows -/

/-- Row `r` of the output array at `e`. -/
def rowOut (q : S8x4096x4.Idx → EReal) (w1 : S2048x2048.Idx → EReal) (b1 : S2048.Idx → EReal) (w2 : S2048x2048.Idx → EReal) (b2 : S2048.Idx → EReal)
    (r : Fin 32768) (e : Fin 2048) : EReal :=
  Cert.Ffn.out q w1 b1 w2 b2 (⟨r.val / 4096, by omega⟩ : Fin 8) (⟨r.val % 4096, by omega⟩ : Fin 4096) e

/-- The output array. -/
def rows (q : S8x4096x4.Idx → EReal) (w1 : S2048x2048.Idx → EReal) (b1 : S2048.Idx → EReal) (w2 : S2048x2048.Idx → EReal) (b2 : S2048.Idx → EReal) :
    S32768x2048.Idx → EReal := fun j => rowOut q w1 b1 w2 b2 (j 0) (j 1)

variable (m : (ℓ : Loc nD τ sig) → Buf (Elt Ideal) ℓ) (ρ : Dev nD → PrngReg)

/-- The output array of core `c`'s run. -/
abbrev outArr (c : Dev nD) : S32768x2048.Idx → EReal :=
  rows (feat (m ((c : Thread nD τ).loc main_arg0))) (m ((c : Thread nD τ).loc main_arg1)) (m ((c : Thread nD τ).loc main_arg2))
    (m ((c : Thread nD τ).loc main_arg3)) (m ((c : Thread nD τ).loc main_arg4))

theorem hz : (![0, 0] : Fin 2 → Nat) = fun _ => 0 := funext fun a => by fin_cases a <;> rfl

/-- The printed index maps over the grid: the feature window and the output window move with the point along the rows;
    the parameter windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the output array. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold outBlock
  rw [View.canon_unit_zero hz]
  simp only [View.ld_unit_zero (S := S512x4) hz, View.ld_unit_zero (S := S2048x4) hz, View.ld_unit_zero (S := S1x2048) hz,
    View.ld_unit_zero (S := S2048x2048) hz]
  obtain ⟨e00, e01, e10, e11, e20, e21, e30, e31, e40, e41, e50, e51⟩ := idx_facts t
  have ht : t.val < 64 := t.isLt
  funext y
  obtain ⟨p, e, rfl⟩ : ∃ (p : Fin 512) (e : Fin 2048), y = ix2 p e := ⟨y 0, y 1, eq_ix2 y⟩
  have hr : t.val * 512 + p.val < 32768 := by have := p.isLt; omega
  have hout : ((cfg0.win 5).blk t).view.emb (ix2 p e) = ix2 (⟨t.val * 512 + p.val, hr⟩ : Fin 32768) e := by
    funext a; apply Fin.ext
    match a with
    | ⟨0, _⟩ => show win0_5.index t (0 : Fin 2) * 512 + 1 * p.val = t.val * 512 + p.val; omega
    | ⟨1, _⟩ => show win0_5.index t (1 : Fin 2) * 2048 + 1 * e.val = e.val; omega
  show k0_pay1 (F := Ideal) (iblk m c 0 t) (iblk m c 1 t) (iblk m c 2 t) (iblk m c 3 t) (iblk m c 4 t) (ix2 p e)
    = outArr m c (((cfg0.win 5).blk t).view.emb (ix2 p e))
  rw [hout]
  refine block_value (iblk m c 0 t) (iblk m c 1 t) (iblk m c 2 t) (iblk m c 3 t) (iblk m c 4 t)
    (feat (m ((c : Thread nD τ).loc main_arg0))) (m ((c : Thread nD τ).loc main_arg1)) (m ((c : Thread nD τ).loc main_arg2))
    (m ((c : Thread nD τ).loc main_arg3)) (m ((c : Thread nD τ).loc main_arg4)) p e
    (⟨(t.val * 512 + p.val) / 4096, by omega⟩ : Fin 8) (⟨(t.val * 512 + p.val) % 4096, by omega⟩ : Fin 4096) ?_ ?_ ?_ ?_ ?_
  · intro k
    show V m c main_v22 (((cfg0.win 0).blk t).view.emb (ix2 p k)) = _
    have h : ((cfg0.win 0).blk t).view.emb (ix2 p k) = ix2 (⟨t.val * 512 + p.val, hr⟩ : Fin 32768) k := by
      funext a; apply Fin.ext
      match a with
      | ⟨0, _⟩ => show win0_0.index t (0 : Fin 2) * 512 + 1 * p.val = t.val * 512 + p.val; omega
      | ⟨1, _⟩ => show win0_0.index t (1 : Fin 2) * 4 + 1 * k.val = k.val; omega
    rw [h]
    exact v22_apply m c ⟨t.val * 512 + p.val, hr⟩ k
  · intro g k
    show V m c main_v24 (((cfg0.win 1).blk t).view.emb (ix2 g k)) = _
    have h : ((cfg0.win 1).blk t).view.emb (ix2 g k) = ix2 g k := by
      funext a; apply Fin.ext
      match a with
      | ⟨0, _⟩ => show win0_1.index t (0 : Fin 2) * 2048 + 1 * g.val = g.val; omega
      | ⟨1, _⟩ => show win0_1.index t (1 : Fin 2) * 4 + 1 * k.val = k.val; omega
    rw [h]
    exact v24_apply m c g k
  · intro g
    show V m c main_v26 (((cfg0.win 2).blk t).view.emb (ix2 0 g)) = _
    have h : ((cfg0.win 2).blk t).view.emb (ix2 (0 : Fin 1) g) = ix2 (0 : Fin 1) g := by
      funext a; apply Fin.ext
      match a with
      | ⟨0, _⟩ => show win0_2.index t (0 : Fin 2) * 1 + 1 * 0 = 0; omega
      | ⟨1, _⟩ => show win0_2.index t (1 : Fin 2) * 2048 + 1 * g.val = g.val; omega
    rw [h]
    exact v26_apply m c 0 g
  · intro e' g
    show V m c main_v25 (((cfg0.win 3).blk t).view.emb (ix2 e' g)) = _
    have h : ((cfg0.win 3).blk t).view.emb (ix2 e' g) = ix2 e' g := by
      funext a; apply Fin.ext
      match a with
      | ⟨0, _⟩ => show win0_3.index t (0 : Fin 2) * 2048 + 1 * e'.val = e'.val; omega
      | ⟨1, _⟩ => show win0_3.index t (1 : Fin 2) * 2048 + 1 * g.val = g.val; omega
    rw [h]
    exact v25_apply m c (ix2 e' g)
  · intro e'
    show V m c main_v27 (((cfg0.win 4).blk t).view.emb (ix2 0 e')) = _
    have h : ((cfg0.win 4).blk t).view.emb (ix2 (0 : Fin 1) e') = ix2 (0 : Fin 1) e' := by
      funext a; apply Fin.ext
      match a with
      | ⟨0, _⟩ => show win0_4.index t (0 : Fin 2) * 1 + 1 * 0 = 0; omega
      | ⟨1, _⟩ => show win0_4.index t (1 : Fin 2) * 2048 + 1 * e'.val = e'.val; omega
    rw [h]
    exact v27_apply m c 0 e'

/-- An index of the output array is in point `t`'s block iff each coordinate is in the block's range on its axis. -/
theorem mem_blk (t : Fin cfg0.N) (i : S32768x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v28).slice (win0_5.rect t)).set ↔ _
  rw [View.set_slice_whole, Rect.mem_set_unit]
  exact Iff.rfl

/-- The 64 blocks of 512 rows cover the 32768 rows. -/
theorem cover (i : S32768x2048.Idx) : ∃ t : Fin cfg0.N, (cfg0.win 5).flush t = true ∧ i ∈ ((cfg0.win 5).blk t).view.set := by
  have hi0 : (i 0).val < 32768 := idx2_lt0 i
  have hi1 : (i 1).val < 2048 := idx2_lt1 i
  refine ⟨(⟨(i 0).val / 512, by show (i 0).val / 512 < 64; omega⟩ : Fin grid0.N), flush0_5 _, ?_⟩
  rw [mem_blk]
  obtain ⟨-, -, -, -, -, -, -, -, -, -, e50, e51⟩ := idx_facts (⟨(i 0).val / 512, by show (i 0).val / 512 < 64; omega⟩ : Fin grid0.N)
  intro a
  match a with
  | ⟨0, _⟩ =>
    show win0_5.index _ (0 : Fin 2) * 512 ≤ (i 0).val ∧ (i 0).val < win0_5.index _ (0 : Fin 2) * 512 + 512
    rw [e50]; show (i 0).val / 512 * 512 ≤ (i 0).val ∧ (i 0).val < (i 0).val / 512 * 512 + 512; omega
  | ⟨1, _⟩ =>
    show win0_5.index _ (1 : Fin 2) * 2048 ≤ (i 1).val ∧ (i 1).val < win0_5.index _ (1 : Fin 2) * 2048 + 2048
    rw [e51]; omega

/-- The output array after the run. -/
theorem final (c : Dev nD) : (dats m 0 c).arrAt 5 cfg0.N = outArr m c :=
  (dats m 0 c).arrAt_eq_of_cover 5 (outArr m c) (fun t _ => flushed_eq m c t) cover

/-! ## The reshape after the region -/

/-- Re-laid as `8 × 4096` rows, the output array is the feed-forward result. -/
theorem relaid (q : S8x4096x4.Idx → EReal) (w1 : S2048x2048.Idx → EReal) (b1 : S2048.Idx → EReal) (w2 : S2048x2048.Idx → EReal) (b2 : S2048.Idx → EReal) :
    shapeCast S8x4096x2048 (rows q w1 b1 w2 b2) shapeCasts_S32768x2048_S8x4096x2048 = Cert.Ffn.result q w1 b1 w2 b2 := by
  funext i
  obtain ⟨b, s, e, rfl⟩ : ∃ (b : Fin 8) (s : Fin 4096) (e : Fin 2048), i = ix3 b s e := ⟨i 0, i 1, i 2, eq_ix3 i⟩
  have hr : b.val * 4096 + s.val < 32768 := by have := b.isLt; have := s.isLt; omega
  refine (shapeCast_apply _ _ (ix3 b s e) (ix2 (⟨b.val * 4096 + s.val, hr⟩ : Fin 32768) e) ?_).trans ?_
  · rw [Shape.rowMajor_val_three, Shape.rowMajor_val_two]
    rfl
  · show rowOut q w1 b1 w2 b2 ⟨b.val * 4096 + s.val, hr⟩ e = Cert.Ffn.out q w1 b1 w2 b2 b s e
    unfold rowOut
    have hb : (⟨(b.val * 4096 + s.val) / 4096, by omega⟩ : Fin 8) = b := Fin.ext (by show (b.val * 4096 + s.val) / 4096 = b.val; have := s.isLt; omega)
    have hs : (⟨(b.val * 4096 + s.val) % 4096, by omega⟩ : Fin 4096) = s := Fin.ext (by show (b.val * 4096 + s.val) % 4096 = s.val; have := s.isLt; omega)
    rw [hb, hs]

/-- What the line after the region leaves in the result buffer. -/
theorem tail_v29 (c : Dev nD) :
    Pipeline.afterTail₀ cfgs (dats m) 0 (V0 m) [hostOps1] c main_v29
      = Cert.Ffn.result (feat (m ((c : Thread nD τ).loc main_arg0))) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v29) = _
  after_results
  have hw : Pipeline.withArrays spec0 c (V0 m c) (fun w => (dats m 0 c).arrAt w cfg0.N) (Proc.devRef .tc (Pipeline.arrRef spec0 5)) = outArr m c :=
    (Pipeline.withArrays_arr spec0 launch0.win.arr_inj c _ _ 5).trans (final m c)
  show (fun i => shapeCast S8x4096x2048 (Pipeline.withArrays spec0 c (V0 m c) (fun w => (dats m 0 c).arrAt w cfg0.N) (Proc.devRef .tc (Pipeline.arrRef spec0 5))) shapeCasts_S32768x2048_S8x4096x2048 i) = _
  rw [hw]
  exact relaid _ _ _ _ _

/-! ## The run, read -/

/-- Every weakly fair execution of the idealized kernel's program terminates with the result buffer at the feed-forward
    result of the feature array and the parameters, and the arguments unchanged. -/
theorem run : θ_run defs (onTc (τ := τ) (main (F := Ideal))) ⟨m, fun _ => 0, ρ⟩ fun r => ∀ c : Dev nD,
      r.2.mem ((c.tc : Thread nD τ).loc main_v29)
        = Cert.Ffn.result (feat (m ((c : Thread nD τ).loc main_arg0))) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).2 main_v29 (Pipeline.mem_restRefs_of main_v29 (by decide) (by decide))).trans (tail_v29 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KBlocks

end
-- ==== Proof.RefValue.lean ====
/-
  The reference program's result, read at an index, is the feed-forward block of the specification applied to the
  feature array.  The reference pads the four features of a row with zeros up to 2048 columns and contracts all 2048
  columns against the first weight matrix; a padded column contributes zero times a weight, which is zero on the
  extended reals whatever the weight is, so that contraction is the sum over the first four columns.  The rectifier is the
  maximum with the zero constant, and the two biases are laid along the rows and added.
-/
import proofs.«135463_j65481071402365_1_alg».proof.Proof.Gen.ReferenceIdeal.Read
import proofs.«135463_j65481071402365_1_alg».proof.Proof.Spec
import Idealize.ShloMosaic.Lib.KernelVsHost

noncomputable section

namespace Cert.ReferenceIdeal.RefValue

open Cert.ReferenceIdeal Cert.ReferenceIdeal.Gen Cert.ReferenceIdeal.Read Idealize.ShloMosaic Idealize.ShloMosaic.ValueIdx

/-- The padding value, the integer zero converted to a float, is the extended real zero. -/
theorem padValue_eq (j : S_.Idx) : val_main_call0_v0 (F := Ideal) j = 0 := by
  rw [val_main_call0_v0_apply, val_main_c_apply]
  show ((((0#32 : BitVec 32).toInt : ℤ) : ℝ) : EReal) = 0
  simp

/-- The padded feature array at row (b, s) and column f: the feature f when f < 4, and zero from column 4 on. -/
theorem v21_apply (x0 : (⟨S8x4096x2048, .f32⟩ : BufTy).Contents (Elt Ideal)) (b : Fin 8) (s : Fin 4096) (f : Fin 2048) :
    val_main_v21 (F := Ideal) x0 (ix3 b s f)
      = if h : f.val < 4 then val_main_v20 (F := Ideal) x0 (ix3 b s (⟨f.val, h⟩ : Fin 4)) else 0 := by
  unfold val_main_v21
  generalize val_main_v20 (F := Ideal) x0 = q
  by_cases h : f.val < 4
  · rw [dif_pos h]
    refine pad_apply_of_inside _ _ _ q _ _ _ (ix3 b s f) (ix3 b s (⟨f.val, h⟩ : Fin 4)) (fun a => ?_)
    match a with
    | ⟨0, _⟩ => show b.val = 0 + b.val * (0 + 1); omega
    | ⟨1, _⟩ => show s.val = 0 + s.val * (0 + 1); omega
    | ⟨2, _⟩ => show f.val = 0 + f.val * (0 + 1); omega
  · rw [dif_neg h, pad_apply_of_not_inside _ _ _ q _ _ _ (ix3 b s f) (2 : Fin 3) (by
      show ¬(0 ≤ f.val ∧ (f.val - 0) % (0 + 1) = 0 ∧ (f.val - 0) / (0 + 1) < 4)
      intro hh
      have := hh.2.2
      simp at this
      exact h this)]
    exact padValue_eq _

/-- The left operand of the first contraction is read at row (b, s), column k. -/
theorem lidx22_eq (b : Fin 8) (s : Fin 4096) (g k : Fin 2048) : lidx_main_v22 (ix3 b s g) k = ix3 b s k :=
  funext fun a => Fin.ext (by match a with | ⟨0, _⟩ => rfl | ⟨1, _⟩ => rfl | ⟨2, _⟩ => rfl)

/-- The first weight matrix is read at row g, column k. -/
theorem ridx22_eq (b : Fin 8) (s : Fin 4096) (g k : Fin 2048) : ridx_main_v22 (ix3 b s g) k = ix2 g k :=
  funext fun a => Fin.ext (by match a with | ⟨0, _⟩ => rfl | ⟨1, _⟩ => rfl)

/-- The left operand of the second contraction is read at row (b, s), column g. -/
theorem lidx27_eq (b : Fin 8) (s : Fin 4096) (e g : Fin 2048) : lidx_main_v27 (ix3 b s e) g = ix3 b s g :=
  funext fun a => Fin.ext (by match a with | ⟨0, _⟩ => rfl | ⟨1, _⟩ => rfl | ⟨2, _⟩ => rfl)

/-- The second weight matrix is read at row e, column g. -/
theorem ridx27_eq (b : Fin 8) (s : Fin 4096) (e g : Fin 2048) : ridx_main_v27 (ix3 b s e) g = ix2 e g :=
  funext fun a => Fin.ext (by match a with | ⟨0, _⟩ => rfl | ⟨1, _⟩ => rfl)

/-- The first bias laid along the rows is read at g. -/
theorem idx23_eq (b : Fin 8) (s : Fin 4096) (g : Fin 2048) : idx_main_v23 (idx_main_v24 (ix3 b s g)) = ix1 g :=
  funext fun a => Fin.ext (by match a with | ⟨0, _⟩ => rfl)

/-- The second bias laid along the rows is read at e. -/
theorem idx28_eq (b : Fin 8) (s : Fin 4096) (e : Fin 2048) : idx_main_v28 (idx_main_v29 (ix3 b s e)) = ix1 e :=
  funext fun a => Fin.ext (by match a with | ⟨0, _⟩ => rfl)

/-- The contraction of the padded features against the first weight matrix is the sum over the four features. -/
theorem v22_apply (x0 : (⟨S8x4096x2048, .f32⟩ : BufTy).Contents (Elt Ideal)) (x1 : (⟨S2048x2048, .f32⟩ : BufTy).Contents (Elt Ideal))
    (b : Fin 8) (s : Fin 4096) (g : Fin 2048) :
    val_main_v22 (F := Ideal) x0 x1 (ix3 b s g)
      = ∑ k : Fin 4, val_main_v20 (F := Ideal) x0 (ix3 b s k) * x1 (ix2 g (Cert.Ffn.col k)) := by
  rw [val_main_v22_apply]
  simp only [lidx22_eq, ridx22_eq]
  rw [Cert.Ffn.sum_pad (fun f => val_main_v21 (F := Ideal) x0 (ix3 b s f) * x1 (ix2 g f)) (fun f hf => by
    show val_main_v21 (F := Ideal) x0 (ix3 b s f) * x1 (ix2 g f) = 0
    rw [v21_apply, dif_neg (by omega), zero_mul])]
  refine Finset.sum_congr rfl fun k _ => ?_
  show val_main_v21 (F := Ideal) x0 (ix3 b s (Cert.Ffn.col k)) * x1 (ix2 g (Cert.Ffn.col k)) = _
  rw [v21_apply, dif_pos (show (Cert.Ffn.col k).val < 4 from k.isLt)]
  rfl

/-- The rectified stage at row (b, s), unit g, is the specification's hidden unit. -/
theorem v26_apply (x0 : (⟨S8x4096x2048, .f32⟩ : BufTy).Contents (Elt Ideal)) (x1 : (⟨S2048x2048, .f32⟩ : BufTy).Contents (Elt Ideal))
    (x2 : (⟨S2048, .f32⟩ : BufTy).Contents (Elt Ideal)) (b : Fin 8) (s : Fin 4096) (g : Fin 2048) :
    val_main_v26 (F := Ideal) x0 x1 x2 (ix3 b s g) = Cert.Ffn.hidden (val_main_v20 (F := Ideal) x0) x1 x2 b s g := by
  rw [val_main_v26_apply, val_main_v25_apply, v22_apply, val_main_v24_apply, val_main_v23_apply, idx23_eq,
    val_main_call1_v0_apply, val_main_call1_cst_apply]
  simp only [Ideal.maximumf_def, Ideal.addf_def, Ideal.ofBits_def, Ideal.ofBits_zero_f32]
  rfl

/-- The reference's result is the specification's feed-forward block of the feature array. -/
theorem ref_result (x0 : (⟨S8x4096x2048, .f32⟩ : BufTy).Contents (Elt Ideal)) (x1 : (⟨S2048x2048, .f32⟩ : BufTy).Contents (Elt Ideal))
    (x2 : (⟨S2048, .f32⟩ : BufTy).Contents (Elt Ideal)) (x3 : (⟨S2048x2048, .f32⟩ : BufTy).Contents (Elt Ideal))
    (x4 : (⟨S2048, .f32⟩ : BufTy).Contents (Elt Ideal)) :
    Cert.ReferenceIdeal.Read.val_main_v30 (F := Ideal) x0 x1 x2 x3 x4
      = Cert.Ffn.result (Cert.ReferenceIdeal.Read.val_main_v20 (F := Ideal) x0) x1 x2 x3 x4 := by
  funext i
  obtain ⟨b, s, e, rfl⟩ : ∃ (b : Fin 8) (s : Fin 4096) (e : Fin 2048), i = ix3 b s e := ⟨i 0, i 1, i 2, eq_ix3 i⟩
  rw [val_main_v30_apply, val_main_v27_apply, val_main_v29_apply, val_main_v28_apply, idx28_eq]
  simp only [lidx27_eq, ridx27_eq, v26_apply, Ideal.addf_def]
  rfl

end Cert.ReferenceIdeal.RefValue

end
-- ==== Proof.lean ====
/-
  The certificate: the word-level kernel, its idealization and the idealized reference each run to the end, fault nowhere
  and leave their arguments unchanged; the idealization is the kernel's own text read over the extended reals (the ideal
  pass rewrote nothing); and the idealized kernel and the idealized reference end with equal results.

  Both programs compute the same feature array from the input by the same host lines (cosines of its first four columns
  and two products of them).  The kernel multiplies each row's four features by the first four columns of the first weight
  matrix, adds the bias, rectifies, multiplies by the second weight matrix and adds the second bias, 512 rows per grid
  point.  The reference pads the features with zeros to 2048 columns and contracts against the whole first weight matrix:
  a padded column contributes zero times a weight, which is zero on the extended reals, so the two hidden layers agree, and
  the rest is the same sum.  Both results are the one function `Cert.Ffn.result` of the feature array and the parameters.
-/
import proofs.«135463_j65481071402365_1_alg».proof.Defs
import proofs.«135463_j65481071402365_1_alg».proof.Proof.Gen.Kernel
import proofs.«135463_j65481071402365_1_alg».proof.Proof.Gen.Kernel.Skeleton
import proofs.«135463_j65481071402365_1_alg».proof.Proof.Gen.Kernel.Launch
import proofs.«135463_j65481071402365_1_alg».proof.Proof.Gen.Kernel.Points
import proofs.«135463_j65481071402365_1_alg».proof.Proof.Gen.KernelIdeal
import proofs.«135463_j65481071402365_1_alg».proof.Proof.Gen.KernelIdeal.Skeleton
import proofs.«135463_j65481071402365_1_alg».proof.Proof.Gen.KernelIdeal.Launch
import proofs.«135463_j65481071402365_1_alg».proof.Proof.Gen.KernelIdeal.Points
import proofs.«135463_j65481071402365_1_alg».proof.Proof.Gen.ReferenceIdeal
import proofs.«135463_j65481071402365_1_alg».proof.Proof.Gen.Pre_finite_inputs
import proofs.«135463_j65481071402365_1_alg».proof.Proof.Gen.ReferenceIdeal.Run
import proofs.«135463_j65481071402365_1_alg».proof.Proof.Gen.ReferenceIdeal.Read
import proofs.«135463_j65481071402365_1_alg».proof.Proof.FrameK
import proofs.«135463_j65481071402365_1_alg».proof.Proof.FrameKI
import proofs.«135463_j65481071402365_1_alg».proof.Proof.KBlocks
import proofs.«135463_j65481071402365_1_alg».proof.Proof.RefValue
import Idealize.ShloMosaic.Adequacy
import Idealize.ShloMosaic.Init

noncomputable section

namespace Cert.Proof

open Idealize.ShloMosaic Idealize.SL.Sem

/-- The feature array is the same term in the two programs: the same host lines over the same shapes. -/
theorem feat_eq (x0 : FVec Ideal Cert.KernelIdeal.S8x4096x2048 .f32) :
    Cert.ReferenceIdeal.Read.val_main_v20 (F := Ideal) x0 = Cert.KernelIdeal.KHost.feat x0 := rfl

theorem frame_k : Cert.frame_Kernel := fun m ρ _ => Cert.Kernel.Frm.frame m ρ

theorem frame_ki : Cert.frame_KernelIdeal := fun m ρ _ => Cert.KernelIdeal.Frm.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end at the feed-forward result of the feature array of the kernel's input and the kernel's parameters:
    the kernel's by its blocks, the reference's by its run read at an index, the arguments agreeing. -/
theorem algebraic : Cert.algebraic_KernelIdeal_ReferenceIdeal := by
  intro m ρ m' ρ' _ hagree
  refine ⟨_, Cert.KernelIdeal.KBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_result, feat_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
